-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : IVec S8192 32) (main_arg3 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192 : Shape := ⟨1, ![8192]⟩
abbrev S8192x1 : Shape := ⟨2, ![8192, 1]⟩
abbrev S1x8192 : Shape := ⟨2, ![1, 8192]⟩
abbrev S1024x512 : Shape := ⟨2, ![1024, 512]⟩
abbrev S512x512 : Shape := ⟨2, ![512, 512]⟩
abbrev S1024x1 : Shape := ⟨2, ![1024, 1]⟩
abbrev S1x512 : Shape := ⟨2, ![1, 512]⟩
abbrev S1x1024 : Shape := ⟨2, ![1, 1024]⟩
abbrev S1024 : Shape := ⟨1, ![1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192, .i32⟩
  | .hbm, ⟨4, _⟩ => ⟨S8192x1, .i32⟩
  | .hbm, ⟨5, _⟩ => ⟨S1x8192, .i32⟩
  | .hbm, ⟨6, _⟩ => ⟨S1x8192, .f32⟩
  | .hbm, ⟨7, _⟩ => ⟨S1x8192, .f32⟩
  | .hbm, ⟨8, _⟩ => ⟨S8192, .f32⟩
  | .hbm, ⟨9, _⟩ => ⟨S8192, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1, .f32⟩
  | .local _ .vmem, ⟨13, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v56 : BitVec 1 := Scalar.cmpi .eq arg1 c15_i32
  let v57 : BitVec 32 := Scalar.extui v56
  let c0_i32_27 : BitVec 32 := 0#32
  let v58 : BitVec 1 := Scalar.cmpi .ne v57 c0_i32_27
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  reduces_S1024x512_S1024 : S1024x512.Reduces [1] S1024
  shapeCasts_S1024_S1024x1 : S1024.ShapeCasts S1024x1
  reduces_S512x512_S512 : S512x512.Reduces [1] S512
  shapeCasts_S512_S512x1 : S512.ShapeCasts S512x1
  transposes_S512x1_p1_0_S1x512 : S512x1.Transposes [1, 0] S1x512
  bitsLt_bf16_f32 : FTy.bits .bf16 < FTy.bits .f32
  broadcasts_S1024x1_S1024x512 : S1024x1.Broadcasts S1024x512
  broadcasts_S1x512_S1024x512 : S1x512.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S1x8192_S8192 : S1x8192.ShapeCasts S8192
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192, .i32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x1, .i32⟩
  | .hbm, ⟨28, _⟩ => ⟨S1x8192, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S_, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_call1_v0 : Ref sig .tc := ⟨.hbm, 49, rfl⟩
abbrev main_call1_v1 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Spec.lean ====
/-
  The mathematics both programs compute, stated once, free of either program's layout.

  For a source row u and a target row v (512 reals each):
    sq u      = Σ_d u_d²                       the squared norm
    dot u v   = Σ_d u_d · v_d                  the inner product
    dist2 u v = max (sq u + sq v - 2 · dot u v, 0) · (1/512)     the mean squared difference, clamped at 0
    hinge2 u v = (max (1/2 - √(dist2 u v), 0))²                  the squared margin hinge
  and with the two section numbers α, β of the pair
    termS = dist2 where α = β, else 0;   termC = 0 where α = β, else hinge2.
  The two results at source row p are the sums of termS and termC over all 8192 target rows, times 1/8192.

  The kernel adds the 8192 terms of a row in 16 groups of 512 consecutive columns, the groups one after the
  other onto a zero: `running`. Addition of extended reals is commutative and associative, so that ordered
  chain is the plain sum over the 8192 columns (`running_last`); no finiteness is needed.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.PairLoss

open Idealize.ShloMosaic

/-! ## The four scale words -/

/-- The word 0x3B000000 is 2⁻⁹ = 1/512. -/
theorem word_inv512 : Ideal.ofBits .f32 0x3B000000#32 = ((1 / 512 : ℝ) : EReal) := by
  simp [Ideal.ofBits, Ideal.ieee, -EReal.coe_mul]; norm_num
/-- The word 0x44000000 is 512. -/
theorem word_512 : Ideal.ofBits .f32 0x44000000#32 = ((512 : ℝ) : EReal) := by
  simp [Ideal.ofBits, Ideal.ieee, -EReal.coe_mul]; norm_num
/-- The word 0x39000000 is 2⁻¹³ = 1/8192. -/
theorem word_inv8192 : Ideal.ofBits .f32 0x39000000#32 = ((1 / 8192 : ℝ) : EReal) := by
  simp [Ideal.ofBits, Ideal.ieee, -EReal.coe_mul]; norm_num
/-- The word 0x46000000 is 8192. -/
theorem word_8192 : Ideal.ofBits .f32 0x46000000#32 = ((8192 : ℝ) : EReal) := by
  simp [Ideal.ofBits, Ideal.ieee, -EReal.coe_mul]; norm_num

/-- Dividing by 512 is multiplying by 1/512, on every extended real. -/
theorem div_512 (x : EReal) : Ideal.div x (Ideal.ofBits .f32 0x44000000#32) = x * ((1 / 512 : ℝ) : EReal) := by
  rw [word_512]; exact Ideal.div_coe (by norm_num) x
/-- Dividing by 8192 is multiplying by 1/8192, on every extended real. -/
theorem div_8192 (x : EReal) : Ideal.div x (Ideal.ofBits .f32 0x46000000#32) = x * ((1 / 8192 : ℝ) : EReal) := by
  rw [word_8192]; exact Ideal.div_coe (by norm_num) x

/-- The words 2.0 and 0.5 stay as they are: both programs carry the same ones. -/
abbrev wTwo : EReal := Ideal.ofBits .f32 0x40000000#32
abbrev wHalf : EReal := Ideal.ofBits .f32 0x3F000000#32

/-! ## One pair of rows -/

/-- The squared norm of a row. -/
def sq (u : Fin 512 → EReal) : EReal := ∑ d : Fin 512, u d * u d
/-- The inner product of two rows. -/
def dot (u v : Fin 512 → EReal) : EReal := ∑ d : Fin 512, u d * v d
/-- The mean squared difference of two rows through the norms and the inner product, clamped at zero. -/
def dist2 (u v : Fin 512 → EReal) : EReal := max (sq u + sq v - wTwo * dot u v) 0 * ((1 / 512 : ℝ) : EReal)
/-- The squared hinge of the margin 1/2 over the distance. -/
def hinge2 (u v : Fin 512 → EReal) : EReal :=
  max (wHalf - Ideal.sqrt (dist2 u v)) 0 * max (wHalf - Ideal.sqrt (dist2 u v)) 0
/-- The same-section term: the squared distance where the two section numbers agree. -/
def termS (u v : Fin 512 → EReal) (α β : BitVec 32) : EReal := Scalar.select (IntOp.cmpi .eq α β) (dist2 u v) 0
/-- The other-section term: the squared hinge where they differ. -/
def termC (u v : Fin 512 → EReal) (α β : BitVec 32) : EReal := Scalar.select (IntOp.cmpi .eq α β) 0 (hinge2 u v)

/-! ## One source row against all target rows -/

/-- The same-section loss of source row `p`. -/
def lossS (S T : Fin 8192 → Fin 512 → EReal) (A B : Fin 8192 → BitVec 32) (p : Fin 8192) : EReal :=
  (∑ q : Fin 8192, termS (S p) (T q) (A p) (B q)) * ((1 / 8192 : ℝ) : EReal)
/-- The other-section loss of source row `p`. -/
def lossC (S T : Fin 8192 → Fin 512 → EReal) (A B : Fin 8192 → BitVec 32) (p : Fin 8192) : EReal :=
  (∑ q : Fin 8192, termC (S p) (T q) (A p) (B q)) * ((1 / 8192 : ℝ) : EReal)

/-! ## Sixteen groups of 512 columns, added in order -/

/-- Column `k` of group `j` (for `j < 16` this is column `512 j + k`; the remainder only makes it total). -/
def col (j : ℕ) (k : Fin 512) : Fin 8192 := ⟨(512 * j + k.val) % 8192, Nat.mod_lt _ (by norm_num)⟩

theorem col_val {j : ℕ} (hj : j < 16) (k : Fin 512) : (col j k).val = 512 * j + k.val := by
  have := k.isLt
  show (512 * j + k.val) % 8192 = _
  exact Nat.mod_eq_of_lt (by omega)

/-- The sum of a row's terms over group `j`. -/
def group (f : Fin 8192 → EReal) (j : ℕ) : EReal := ∑ k : Fin 512, f (col j k)

/-- The groups added in order onto a zero: after group 0, `0 + group 0`; then one more group each step. -/
def running (f : Fin 8192 → EReal) : ℕ → EReal
  | 0 => 0 + group f 0
  | j + 1 => running f j + group f (j + 1)

theorem running_eq_sum_range (f : Fin 8192 → EReal) (j : ℕ) :
    running f j = ∑ i ∈ Finset.range (j + 1), group f i := by
  induction j with
  | zero => simp [running]
  | succ j ih => rw [running, ih, Finset.sum_range_succ _ (j + 1)]

/-- After the sixteenth group the ordered chain is the sum over all 8192 columns. -/
theorem running_last (f : Fin 8192 → EReal) : running f 15 = ∑ q : Fin 8192, f q := by
  rw [running_eq_sum_range, Finset.sum_range (fun i => group f i)]
  have e : ∀ x : Fin 16 × Fin 512, col x.1.val x.2 = (finProdFinEquiv : Fin 16 × Fin 512 ≃ Fin 8192) x := by
    rintro ⟨a, b⟩
    apply Fin.ext
    show (col a.val b).val = b.val + 512 * a.val
    rw [col_val a.isLt]; omega
  calc ∑ i : Fin 16, group f i.val
      = ∑ x : Fin 16 × Fin 512, f (col x.1.val x.2) := by
        rw [Fintype.sum_prod_type]; rfl
    _ = ∑ x : Fin 16 × Fin 512, f ((finProdFinEquiv : Fin 16 × Fin 512 ≃ Fin 8192) x) :=
        Finset.sum_congr rfl fun x _ => by rw [e x]
    _ = ∑ q : Fin 8192, f q := Equiv.sum_comp (finProdFinEquiv : Fin 16 × Fin 512 ≃ Fin 8192) f

end Cert.PairLoss

end
-- ==== Proof.RefVal.lean ====
/-
  The reference, read at one element.

  The reference forms, for every pair of a source row and a target row, the clamped squared distance divided by
  512 and its square root, masks the distance where the section numbers agree and the squared hinge where they
  differ, sums each over the 8192 target rows from a zero, and divides by 8192. Read at source row `p`, its two
  results are `lossS` and `lossC` of `Spec.lean`: a quotient by 512 or by 8192 is the product with the
  reciprocal on every extended real, a sum from zero is the sum, and `max` commutes.
-/
import proofs.«135731_j80315888435505_1_alg».proof.Proof.Spec
import proofs.«135731_j80315888435505_1_alg».proof.Proof.Gen.ReferenceIdeal.Read
import Idealize.ShloMosaic.Lib.ValueIdx
import Idealize.ShloMosaic.Lib.IdealHost
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.PairLoss

variable (x0 x1 : (⟨S8192x512, .f32⟩ : BufTy).Contents (Elt Ideal)) (x2 x3 : (⟨S8192, .i32⟩ : BufTy).Contents (Elt Ideal))

/-! ## Where each stage reads its operands

The broadcasts and the two kinds of sum only move coordinates: at the pair `(p, q)` the source-side stages read
row `p`, the target-side stages read row `q`, and the summed coordinate is the column. -/

/-- The source norm's summand at the pair `(p, q)` is read at `(p, k)`. -/
private theorem idx_sqS (p q : Fin 8192) (k : Fin 512) :
    idx_main_v1 (idx_main_v5 (idx_main_v7 (ix2 p q))) k = ix2 p k :=
  funext fun a => by match a with | ⟨0, _⟩ => rfl | ⟨1, _⟩ => rfl

/-- The target norm's summand at the pair `(p, q)` is read at `(q, k)`. -/
private theorem idx_sqT (p q : Fin 8192) (k : Fin 512) :
    idx_main_v3 (idx_main_v6 (idx_main_v8 (ix2 p q))) k = ix2 q k :=
  funext fun a => by match a with | ⟨0, _⟩ => rfl | ⟨1, _⟩ => rfl

/-- The inner product's left factor at the pair `(p, q)` is read at `(p, k)`. -/
private theorem idx_dotL (p q : Fin 8192) (k : Fin 512) : lidx_main_v4 (ix2 p q) k = ix2 p k :=
  funext fun a => by match a with | ⟨0, _⟩ => rfl | ⟨1, _⟩ => rfl

/-- The inner product's right factor at the pair `(p, q)` is read at `(q, k)`. -/
private theorem idx_dotR (p q : Fin 8192) (k : Fin 512) : ridx_main_v4 (ix2 p q) k = ix2 q k :=
  funext fun a => by match a with | ⟨0, _⟩ => rfl | ⟨1, _⟩ => rfl

/-- The source section number at the pair `(p, q)` is the one of row `p`. -/
private theorem idx_secS (p q : Fin 8192) : idx_main_v18 (idx_main_v20 (ix2 p q)) = ix1 p :=
  funext fun a => by match a with | ⟨0, _⟩ => rfl

/-- The target section number at the pair `(p, q)` is the one of row `q`. -/
private theorem idx_secT (p q : Fin 8192) : idx_main_v19 (idx_main_v21 (ix2 p q)) = ix1 q :=
  funext fun a => by match a with | ⟨0, _⟩ => rfl

/-- The first row sum's term `q` at source row `p` is read at the pair `(p, q)`. -/
private theorem idx_sumS (p q : Fin 8192) : idx_main_v24 (ix1 p) q = ix2 p q :=
  funext fun a => by match a with | ⟨0, _⟩ => rfl | ⟨1, _⟩ => rfl

/-- The second row sum's term `q` at source row `p` is read at the pair `(p, q)`. -/
private theorem idx_sumC (p q : Fin 8192) : idx_main_v33 (ix1 p) q = ix2 p q :=
  funext fun a => by match a with | ⟨0, _⟩ => rfl | ⟨1, _⟩ => rfl

/-! ## The shared middle: one pair of rows -/

/-- At the pair `(p, q)` the quotient stage is the clamped mean squared difference of source row `p` and target
    row `q`: each norm is a sum from zero, and the quotient by 512 is the product with 1/512. -/
private theorem dist2_at (p q : Fin 8192) :
    val_main_v16 (F := Ideal) x0 x1 (ix2 p q)
      = dist2 (fun d => x0 (ix2 p d)) (fun d => x1 (ix2 q d)) := by
  rw [val_main_v16_apply, val_main_v14_apply, val_main_v12_apply, val_main_v9_apply,
    val_main_v7_apply, val_main_v5_apply, val_main_v1_apply, val_main_v8_apply, val_main_v6_apply,
    val_main_v3_apply, val_main_v11_apply, val_main_v10_apply, val_main_v4_apply, val_main_v13_apply,
    val_main_v15_apply]
  simp only [val_main_v0_apply, val_main_v2_apply, val_main_cst_apply, val_main_cst_0_apply,
    val_main_cst_1_apply, val_main_cst_2_apply, val_main_cst_3_apply, idx_sqS, idx_sqT, idx_dotL, idx_dotR,
    Ideal.mulf_def, Ideal.addf_def, Ideal.subf_def, Ideal.maximumf_def, Ideal.hostDivf_def, Ideal.ofBits_def,
    Ideal.ofBits_zero_f32, zero_add, div_512]
  rfl

/-- At the pair `(p, q)` the root stage is the square root of that distance. -/
private theorem sqrt_at (p q : Fin 8192) :
    val_main_v17 (F := Ideal) x0 x1 (ix2 p q)
      = Ideal.sqrt (dist2 (fun d => x0 (ix2 p d)) (fun d => x1 (ix2 q d))) := by
  rw [val_main_v17_apply, dist2_at, Ideal.hostUnary_sqrt_def]

/-- At the pair `(p, q)` the compare stage compares the section number of source row `p` with that of target
    row `q`. -/
private theorem same_at (p q : Fin 8192) :
    val_main_v22 (F := Ideal) x2 x3 (ix2 p q) = IntOp.cmpi .eq (x2 (ix1 p)) (x3 (ix1 q)) := by
  rw [val_main_v22_apply, val_main_v20_apply, val_main_v18_apply, val_main_v21_apply, val_main_v19_apply,
    idx_secS, idx_secT]

/-! ## The two results -/

/-- The reference's first result at source row `p` is the same-section loss of that row. -/
theorem ref_lossS (p : Fin 8192) :
    val_main_v26 (F := Ideal) x0 x1 x2 x3 (ix1 p)
      = lossS (fun a d => x0 (ix2 a d)) (fun b d => x1 (ix2 b d)) (fun a => x2 (ix1 a)) (fun b => x3 (ix1 b)) p := by
  rw [val_main_v26_apply, val_main_v24_apply, val_main_v25_apply, val_main_cst_6_apply, val_main_cst_5_apply]
  simp only [Ideal.hostDivf_def, Ideal.ofBits_def, Ideal.ofBits_zero_f32, zero_add, div_8192]
  unfold lossS
  refine congrArg (· * ((1 / 8192 : ℝ) : EReal)) (Finset.sum_congr rfl fun q _ => ?_)
  rw [idx_sumS, val_main_v23_apply, same_at, dist2_at, val_main_call0_v1_apply, val_main_call0_v0_apply,
    val_main_cst_4_apply, Ideal.ofBits_def, Ideal.ofBits_zero_f32]
  rfl

/-- The reference's second result at source row `p` is the other-section loss of that row. -/
theorem ref_lossC (p : Fin 8192) :
    val_main_v35 (F := Ideal) x0 x1 x2 x3 (ix1 p)
      = lossC (fun a d => x0 (ix2 a d)) (fun b d => x1 (ix2 b d)) (fun a => x2 (ix1 a)) (fun b => x3 (ix1 b)) p := by
  rw [val_main_v35_apply, val_main_v33_apply, val_main_v34_apply, val_main_cst_11_apply, val_main_cst_10_apply]
  simp only [Ideal.hostDivf_def, Ideal.ofBits_def, Ideal.ofBits_zero_f32, zero_add, div_8192]
  unfold lossC
  refine congrArg (· * ((1 / 8192 : ℝ) : EReal)) (Finset.sum_congr rfl fun q _ => ?_)
  rw [idx_sumC, val_main_v32_apply, same_at, val_main_v31_apply, val_main_v30_apply, val_main_v28_apply,
    sqrt_at, val_main_v29_apply, val_main_cst_8_apply, val_main_v27_apply, val_main_cst_7_apply,
    val_main_call1_v1_apply, val_main_call1_v0_apply, val_main_cst_9_apply]
  simp only [Ideal.mulf_def, Ideal.subf_def, Ideal.maximumf_def, Ideal.ofBits_def, Ideal.ofBits_zero_f32]
  rw [max_comm]
  rfl

end Cert.ReferenceIdeal.RefValue

end
-- ==== Proof.KPay.lean ====
/-
  The kernel body's arithmetic, read at one element.

  The body works on a block of 1024 source rows `x0` and a block of 512 target rows `x1` (512 reals a row), with
  the source rows' section numbers `x2` (a column) and the target rows' `x3` (a row). Its stores' values are
  pure terms of these blocks; read at one element each is the mathematics of `Spec.lean` for that pair of rows:
  the clamped scaled squared distance, its masked sum over the block's 512 target rows, the masked sum of the
  squared hinge added onto what the accumulator held, and the accumulator transposed and scaled by 1/8192.
-/
import proofs.«135731_j80315888435505_1_alg».proof.Proof.Spec
import proofs.«135731_j80315888435505_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.TcCoe Idealize.ShloMosaic.ValueIdx
open Cert.KernelIdeal Cert.KernelIdeal.Gen Cert.PairLoss

variable (x0 : Vec Ideal S1024x512 .f32) (x1 : Vec Ideal S512x512 .f32) (x2 : Vec Ideal S1024x1 .i32) (x3 : Vec Ideal S1x512 .i32)

/-! ## The layout operations of the body, read at an index given by coordinates -/

/-- A vector `[a]` cast to the column `[a, 1]` reads, at `(i, u)`, the operand at `i`. -/
private theorem shapeCast_a_a1_apply {α : Type} {a : ℕ} (v : (⟨1, ![a]⟩ : Shape).Idx → α)
    (h : (⟨1, ![a]⟩ : Shape).ShapeCasts ⟨2, ![a, 1]⟩) (i : Fin a) (u : Fin 1) :
    shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, b]` block, read at row `r`, is the sum of that row's `b` entries. -/
private theorem rowSum_apply {a b : ℕ} (v : FVec Ideal ⟨2, ![a, b]⟩ .f32)
    (h : (⟨2, ![a, b]⟩ : Shape).Reduces [1] ⟨1, ![a]⟩) (hφ : FKind.Formats .f32)
    (acc : BitVec (FTy.bits .f32)) (hacc : acc = FKind.add.neutral .f32 hφ) (r : Fin a) :
    multiReduction (F := Ideal) .add [1] ⟨1, ![a]⟩ v acc h hφ hacc (ix1 r) = ∑ k : Fin b, v (ix2 r k) := by
  refine (Ideal.multiReduction_add_single v _ h hφ hacc (ix1 r)).trans ?_
  show ∑ k : Fin b, v (h.lift (ix1 r) k) = ∑ k : Fin b, v (ix2 r k)
  refine Finset.sum_congr rfl fun k _ => congrArg v (funext fun c => Fin.ext ?_)
  match c with
  | ⟨0, _⟩ => rfl
  | ⟨1, _⟩ => rfl

/-- The row sum kept as a column: at `(r, u)` it is the sum of row `r`. -/
private theorem rowSumCol_apply {a b : ℕ} (v : FVec Ideal ⟨2, ![a, b]⟩ .f32)
    (h : (⟨2, ![a, b]⟩ : Shape).Reduces [1] ⟨1, ![a]⟩) (hφ : FKind.Formats .f32)
    (acc : BitVec (FTy.bits .f32)) (hacc : acc = FKind.add.neutral .f32 hφ)
    (hc : (⟨1, ![a]⟩ : Shape).ShapeCasts ⟨2, ![a, 1]⟩) (r : Fin a) (u : Fin 1) :
    shapeCast ⟨2, ![a, 1]⟩ (multiReduction (F := Ideal) .add [1] ⟨1, ![a]⟩ v acc h hφ hacc) hc (ix2 r u)
      = ∑ k : Fin b, v (ix2 r k) :=
  (shapeCast_a_a1_apply _ hc r u).trans (rowSum_apply v h hφ acc hacc r)

/-! ## The matrix product: both operands contracted along their rows' 512 entries -/

private theorem mm_lhs_0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
private theorem mm_lhs_1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
private theorem mm_rhs_0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
private theorem mm_rhs_1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

/-- Element `(r, k)` of the product into a zero accumulator is the inner product of row `r` of the left block and
    row `k` of the right block. -/
private theorem mm_apply {φ₁ φ₂ : FTy} (A : FVec Ideal S1024x512 φ₁) (B : FVec Ideal S512x512 φ₂) (r : Fin 1024) (k : Fin 512) :
    matmul dot_S1024x512_S512x512_S1024x512_1_1_0_0_n_n none A B (constant S1024x512 .f32 0x00000000#32) (ix2 r k)
      = ∑ d : Fin 512, A (ix2 r d) * B (ix2 k d) := by
  simp only [matmul]
  rw [Ideal.matmul_constant_zero_apply, ← Equiv.sum_comp (ValueIdx.contrEquiv1 dot_S1024x512_S512x512_S1024x512_1_1_0_0_n_n 512 rfl rfl).symm]
  refine Finset.sum_congr rfl fun d _ => ?_
  have hd := ValueIdx.contrEquiv1_symm_val dot_S1024x512_S512x512_S1024x512_1_1_0_0_n_n 512 rfl rfl d
  have el : dot_S1024x512_S512x512_S1024x512_1_1_0_0_n_n.lhsIdx (ix2 r k) ((ValueIdx.contrEquiv1 dot_S1024x512_S512x512_S1024x512_1_1_0_0_n_n 512 rfl rfl).symm d) = ix2 r d := funext fun a => Fin.ext (by
    match a with
    | ⟨0, _⟩ => exact mm_lhs_0 _ _
    | ⟨1, _⟩ => exact (mm_lhs_1 _ _).trans hd)
  have er : dot_S1024x512_S512x512_S1024x512_1_1_0_0_n_n.rhsIdx (ix2 r k) ((ValueIdx.contrEquiv1 dot_S1024x512_S512x512_S1024x512_1_1_0_0_n_n 512 rfl rfl).symm d) = ix2 k d := funext fun a => Fin.ext (by
    match a with
    | ⟨0, _⟩ => exact mm_rhs_0 _ _
    | ⟨1, _⟩ => exact (mm_rhs_1 _ _).trans hd)
  rw [el, er]

/-! ## The three factors of the squared distance, and the mask -/

/-- The source rows' squared norms, kept as a column and spread over the block: at `(r, k)` the squared norm of row `r`. -/
private theorem rowNorm_apply (h : S1024x512.Reduces [1] S1024) (hφ : FKind.Formats .f32)
    (acc : BitVec (FTy.bits .f32)) (hacc : acc = FKind.add.neutral .f32 hφ) (hc : S1024.ShapeCasts S1024x1)
    (hb : S1024x1.Broadcasts S1024x512) (r : Fin 1024) (k : Fin 512) :
    broadcastTo S1024x512 (shapeCast S1024x1 (multiReduction (F := Ideal) .add [1] S1024 (mulf x0 x0) acc h hφ hacc) hc) hb (ix2 r k)
      = PairLoss.sq (fun d => x0 (ix2 r d)) :=
  (broadcastTo_a1_ab_apply _ hb r k).trans ((rowSumCol_apply _ h hφ acc hacc hc r 0).trans rfl)

/-- The target rows' squared norms, kept as a column, laid out as a row and spread over the block: at `(r, k)` the
    squared norm of target row `k`. -/
private theorem colNorm_apply (h : S512x512.Reduces [1] S512) (hφ : FKind.Formats .f32)
    (acc : BitVec (FTy.bits .f32)) (hacc : acc = FKind.add.neutral .f32 hφ) (hc : S512.ShapeCasts S512x1)
    (ht : S512x1.Transposes [1, 0] S1x512) (hb : S1x512.Broadcasts S1024x512) (r : Fin 1024) (k : Fin 512) :
    broadcastTo S1024x512 (transpose S1x512 [1, 0] (shapeCast S512x1 (multiReduction (F := Ideal) .add [1] S512 (mulf x1 x1) acc h hφ hacc) hc) ht) hb (ix2 r k)
      = PairLoss.sq (fun d => x1 (ix2 k d)) :=
  (broadcastTo_1b_ab_apply _ hb r k).trans
    ((transpose_ix2_apply _ ht (0 : Fin 1) k).trans ((rowSumCol_apply _ h hφ acc hacc hc k 0).trans rfl))

/-- The product of the two blocks, narrowed to the short format first (the identity on extended reals): at `(r, k)` the
    inner product of source row `r` and target row `k`. -/
private theorem mmDot_apply (h0 : FTy.bits .bf16 < FTy.bits .f32) (h1 : FTy.bits .bf16 < FTy.bits .f32) (r : Fin 1024) (k : Fin 512) :
    matmul (F := Ideal) dot_S1024x512_S512x512_S1024x512_1_1_0_0_n_n none (truncf (F := Ideal) .bf16 x0 h0) (truncf (F := Ideal) .bf16 x1 h1)
        (constant S1024x512 .f32 0x00000000#32) (ix2 r k)
      = PairLoss.dot (fun d => x0 (ix2 r d)) (fun d => x1 (ix2 k d)) :=
  (mm_apply _ _ r k).trans rfl

/-- The mask at `(r, k)` compares source row `r`'s section number with target row `k`'s. -/
private theorem pay9_apply (r : Fin 1024) (k : Fin 512) :
    k0_pay9 (F := Ideal) x2 x3 (ix2 r k) = IntOp.cmpi .eq (x2 (ix2 r (0 : Fin 1))) (x3 (ix2 (0 : Fin 1) k)) := by
  unfold k0_pay9
  simp only [shapeCast_self]
  show IntOp.cmpi .eq (broadcastTo S1024x512 x2 broadcasts_S1024x1_S1024x512 (ix2 r k))
      (broadcastTo S1024x512 x3 broadcasts_S1x512_S1024x512 (ix2 r k)) = _
  rw [broadcastTo_a1_ab_apply, broadcastTo_1b_ab_apply]

/-! ## The payloads -/

/-- The scaled squared distance of source row `r` and target row `k` of the blocks. -/
theorem pay7_apply (r : Fin 1024) (k : Fin 512) :
    k0_pay7 (F := Ideal) x0 x1 (ix2 r k) = dist2 (fun d => x0 (ix2 r d)) (fun d => x1 (ix2 k d)) := by
  have e1 := rowNorm_apply x0 reduces_S1024x512_S1024 (.inl rfl) 0x00000000#32 rfl shapeCasts_S1024_S1024x1
    broadcasts_S1024x1_S1024x512 r k
  have e2 := colNorm_apply x1 reduces_S512x512_S512 (.inl rfl) 0x00000000#32 rfl shapeCasts_S512_S512x1
    transposes_S512x1_p1_0_S1x512 broadcasts_S1x512_S1024x512 r k
  have e3 := mmDot_apply x0 x1 bitsLt_bf16_f32 bitsLt_bf16_f32 r k
  unfold k0_pay7
  exact congrArg₂ (· * ·)
    (congrArg₂ max (congrArg₂ (· - ·) (congrArg₂ (· + ·) e1 e2) (congrArg (wTwo * ·) e3)) Ideal.ofBits_zero_f32)
    word_inv512

/-- The square root of the scaled squared distance. -/
private theorem pay8_apply (r : Fin 1024) (k : Fin 512) :
    k0_pay8 (F := Ideal) x0 x1 (ix2 r k) = Ideal.sqrt (dist2 (fun d => x0 (ix2 r d)) (fun d => x1 (ix2 k d))) := by
  unfold k0_pay8
  show Ideal.sqrt (k0_pay7 (F := Ideal) x0 x1 (ix2 r k)) = _
  rw [pay7_apply]

/-- The same-section terms of source row `r` summed over the block's 512 target rows. -/
theorem pay10_apply (r : Fin 1024) :
    k0_pay10 (F := Ideal) x0 x1 x2 x3 (ix2 r (0 : Fin 1))
      = ∑ k : Fin 512, termS (fun d => x0 (ix2 r d)) (fun d => x1 (ix2 k d)) (x2 (ix2 r (0 : Fin 1))) (x3 (ix2 (0 : Fin 1) k)) := by
  unfold k0_pay10
  refine (rowSumCol_apply _ _ _ _ _ _ r 0).trans (Finset.sum_congr rfl fun k _ => ?_)
  simp only [select_apply, broadcast_apply, pay9_apply, pay7_apply, Ideal.ofBits_def, Ideal.ofBits_zero_f32]
  rfl

/-- The other-section terms of source row `r` summed over the block's 512 target rows, added onto the accumulator. -/
theorem pay2_apply (xs1 : Vec Ideal S1024x1 .f32) (r : Fin 1024) :
    k0_pay2 (F := Ideal) (k0_pay8 x0 x1) (k0_pay9 x2 x3) k0_pay11 xs1 (ix2 r (0 : Fin 1))
      = xs1 (ix2 r (0 : Fin 1))
        + ∑ k : Fin 512, termC (fun d => x0 (ix2 r d)) (fun d => x1 (ix2 k d)) (x2 (ix2 r (0 : Fin 1))) (x3 (ix2 (0 : Fin 1) k)) := by
  unfold k0_pay2
  simp only [shapeCast_self]
  refine (addf_apply _ _ _).trans (congrArg (xs1 (ix2 r (0 : Fin 1)) + ·) ?_)
  refine (rowSumCol_apply _ _ _ _ _ _ r 0).trans (Finset.sum_congr rfl fun k _ => ?_)
  simp only [select_apply, mulf_apply, maximumf_apply, subf_apply, broadcast_apply, pay9_apply, pay8_apply,
    Ideal.ofBits_def, Ideal.ofBits_zero_f32]
  rfl

/-- The first accumulator's update: what it held plus the block's sum. -/
theorem pay1_apply (v36 v46 : Vec Ideal S1024x1 .f32) (r : Fin 1024) :
    k0_pay1 (F := Ideal) v36 v46 (ix2 r (0 : Fin 1)) = v46 (ix2 r (0 : Fin 1)) + v36 (ix2 r (0 : Fin 1)) := by
  unfold k0_pay1
  simp only [shapeCast_self]
  rfl

/-- The first result block: the accumulator column laid out as a row, times 1/8192. -/
theorem pay3_apply (v59 : Vec Ideal S1024x1 .f32) (r : Fin 1024) :
    k0_pay3 (F := Ideal) v59 (ix2 (0 : Fin 1) r) = v59 (ix2 r (0 : Fin 1)) * ((1 / 8192 : ℝ) : EReal) := by
  unfold k0_pay3
  show transpose S1x1024 [1, 0] v59 transposes_S1024x1_p1_0_S1x1024 (ix2 (0 : Fin 1) r) * Ideal.ofBits .f32 0x39000000#32 = _
  rw [transpose_ix2_apply, word_inv8192]

/-- The second result block likewise. -/
theorem pay4_apply (v64 : Vec Ideal S1024x1 .f32) (r : Fin 1024) :
    k0_pay4 (F := Ideal) v64 (ix2 (0 : Fin 1) r) = v64 (ix2 r (0 : Fin 1)) * ((1 / 8192 : ℝ) : EReal) := by
  unfold k0_pay4
  show transpose S1x1024 [1, 0] v64 transposes_S1024x1_p1_0_S1x1024 (ix2 (0 : Fin 1) r) * Ideal.ofBits .f32 0x39000000#32 = _
  rw [transpose_ix2_apply, word_inv8192]

/-- The reset stores zeros. -/
theorem pay5_apply (r : Fin 1024) : k0_pay5 (F := Ideal) (ix2 r (0 : Fin 1)) = 0 := by
  unfold k0_pay5
  simp only [shapeCast_self]
  exact Ideal.ofBits_zero_f32
theorem pay6_apply (r : Fin 1024) : k0_pay6 (F := Ideal) (ix2 r (0 : Fin 1)) = 0 := by
  unfold k0_pay6
  simp only [shapeCast_self]
  exact Ideal.ofBits_zero_f32

end Cert.KernelIdeal.Pay

end
-- ==== Proof.KPieces.lean ====
/-
  What each run of the kernel body leaves in its two accumulators and, at the last point of a source block, in the
  two result blocks, as pure terms of the blocks it loaded.

  The body has three control cases. At the first point of a source block it stores zeros into both accumulators and
  then adds this point's two partial sums onto them; at the other points it adds them onto what the accumulators
  held; at the last point it also stores each updated accumulator, transposed and scaled, into its result block.
  Every store covers its whole buffer at offset zero, and a load after a store reads what was stored, so what a
  buffer ends holding is the last store's value with each load replaced by the contents it read.
-/
import proofs.«135731_j80315888435505_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-! ## The first point of a source block: the accumulators restart from zero -/

/-- The first accumulator: this point's same-section sums added onto the zeros just stored. -/
theorem sA0 (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x512 .f32) (x1 : Vec F S512x512 .f32) (x2 : Vec F S1024x1 .i32) (x3 : Vec F S1x512 .i32) :
    sout0_A_0 c i arg2 harg2 arg3 harg3 arg4 harg4 arg5 harg5 arg6 harg6 arg7 harg7 arg8 harg8 arg9 harg9 hc0 hc1 x0 x1 x2 x3 = k0_pay1 (k0_pay10 x0 x1 x2 x3) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readAt_eq_ld, harg2.read_unread, harg3.read_unread, harg4.read_unread, harg5.read_unread,
    View.ld_unit_zero (S := S1024x512) hz, View.ld_unit_zero (S := S512x512) hz, View.ld_unit_zero (S := S1024x1) hz,
    View.ld_unit_zero (S := S1x512) hz, View.readCov_unit_zero (S := S1024x1) _ hz]

/-- The second accumulator: this point's other-section sums added onto the zeros just stored. -/
theorem sA1 (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x512 .f32) (x1 : Vec F S512x512 .f32) (x2 : Vec F S1024x1 .i32) (x3 : Vec F S1x512 .i32) :
    sout0_A_1 c i arg2 harg2 arg3 harg3 arg4 harg4 arg5 harg5 arg6 harg6 arg7 harg7 arg8 harg8 arg9 harg9 hc0 hc1 x0 x1 x2 x3 = k0_pay2 (k0_pay8 x0 x1) (k0_pay9 x2 x3) k0_pay11 (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readAt_eq_ld, harg2.read_unread, harg3.read_unread, harg4.read_unread, harg5.read_unread,
    View.ld_unit_zero (S := S1024x512) hz, View.ld_unit_zero (S := S512x512) hz, View.ld_unit_zero (S := S1024x1) hz,
    View.ld_unit_zero (S := S1x512) hz, View.readCov_unit_zero (S := S1024x1) _ hz]

/-! ## A point in the middle of a source block: the sums are added onto what the accumulators held -/

theorem sB0 (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x512 .f32) (x1 : Vec F S512x512 .f32) (x2 : Vec F S1024x1 .i32) (x3 : Vec F S1x512 .i32) (xs0 xs1 : Vec F S1024x1 .f32) :
    sout0_B_0 c i arg2 harg2 arg3 harg3 arg4 harg4 arg5 harg5 arg6 harg6 arg7 harg7 arg8 harg8 arg9 harg9 hc0 hc1 x0 x1 x2 x3 xs0 xs1 = k0_pay1 (k0_pay10 x0 x1 x2 x3) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg8.read_unread, harg9.read_unread,
    View.ld_unit_zero (S := S1024x512) hz, View.ld_unit_zero (S := S512x512) hz, View.ld_unit_zero (S := S1024x1) hz,
    View.ld_unit_zero (S := S1x512) hz, View.readCov_unit_zero (S := S1024x1) _ hz]

theorem sB1 (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x512 .f32) (x1 : Vec F S512x512 .f32) (x2 : Vec F S1024x1 .i32) (x3 : Vec F S1x512 .i32) (xs0 xs1 : Vec F S1024x1 .f32) :
    sout0_B_1 c i arg2 harg2 arg3 harg3 arg4 harg4 arg5 harg5 arg6 harg6 arg7 harg7 arg8 harg8 arg9 harg9 hc0 hc1 x0 x1 x2 x3 xs0 xs1 = k0_pay2 (k0_pay8 x0 x1) (k0_pay9 x2 x3) k0_pay11 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg8.read_unread, harg9.read_unread,
    View.ld_unit_zero (S := S1024x512) hz, View.ld_unit_zero (S := S512x512) hz, View.ld_unit_zero (S := S1024x1) hz,
    View.ld_unit_zero (S := S1x512) hz, View.readCov_unit_zero (S := S1024x1) _ hz]

/-! ## The last point of a source block: the same update, and the two result blocks -/

theorem sC0 (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x512 .f32) (x1 : Vec F S512x512 .f32) (x2 : Vec F S1024x1 .i32) (x3 : Vec F S1x512 .i32) (xs0 xs1 : Vec F S1024x1 .f32) :
    sout0_C_0 c i arg2 harg2 arg3 harg3 arg4 harg4 arg5 harg5 arg6 harg6 arg7 harg7 arg8 harg8 arg9 harg9 hc0 hc1 x0 x1 x2 x3 xs0 xs1 = k0_pay1 (k0_pay10 x0 x1 x2 x3) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S1024x512) hz, View.ld_unit_zero (S := S512x512) hz, View.ld_unit_zero (S := S1024x1) hz,
    View.ld_unit_zero (S := S1x512) hz, View.readCov_unit_zero (S := S1024x1) _ hz]

theorem sC1 (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x512 .f32) (x1 : Vec F S512x512 .f32) (x2 : Vec F S1024x1 .i32) (x3 : Vec F S1x512 .i32) (xs0 xs1 : Vec F S1024x1 .f32) :
    sout0_C_1 c i arg2 harg2 arg3 harg3 arg4 harg4 arg5 harg5 arg6 harg6 arg7 harg7 arg8 harg8 arg9 harg9 hc0 hc1 x0 x1 x2 x3 xs0 xs1 = k0_pay2 (k0_pay8 x0 x1) (k0_pay9 x2 x3) k0_pay11 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S1024x512) hz, View.ld_unit_zero (S := S512x512) hz, View.ld_unit_zero (S := S1024x1) hz,
    View.ld_unit_zero (S := S1x512) hz, View.readCov_unit_zero (S := S1024x1) _ hz]

/-- The first result block: the updated first accumulator, as a row, scaled. -/
theorem oC4 (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x512 .f32) (x1 : Vec F S512x512 .f32) (x2 : Vec F S1024x1 .i32) (x3 : Vec F S1x512 .i32) (xs0 xs1 : Vec F S1024x1 .f32) :
    out0_C_4 c i arg2 harg2 arg3 harg3 arg4 harg4 arg5 harg5 arg6 harg6 arg7 harg7 arg8 harg8 arg9 harg9 hc0 hc1 x0 x1 x2 x3 xs0 xs1 = k0_pay3 (k0_pay1 (k0_pay10 x0 x1 x2 x3) xs0) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S1024x512) hz, View.ld_unit_zero (S := S512x512) hz, View.ld_unit_zero (S := S1024x1) hz,
    View.ld_unit_zero (S := S1x512) hz, View.readCov_unit_zero (S := S1024x1) _ hz]

/-- The second result block: the updated second accumulator, as a row, scaled. -/
theorem oC5 (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x512 .f32) (x1 : Vec F S512x512 .f32) (x2 : Vec F S1024x1 .i32) (x3 : Vec F S1x512 .i32) (xs0 xs1 : Vec F S1024x1 .f32) :
    out0_C_5 c i arg2 harg2 arg3 harg3 arg4 harg4 arg5 harg5 arg6 harg6 arg7 harg7 arg8 harg8 arg9 harg9 hc0 hc1 x0 x1 x2 x3 xs0 xs1 = k0_pay4 (k0_pay2 (k0_pay8 x0 x1) (k0_pay9 x2 x3) k0_pay11 xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S1024x512) hz, View.ld_unit_zero (S := S512x512) hz, View.ld_unit_zero (S := S1024x1) hz,
    View.ld_unit_zero (S := S1x512) hz, View.readCov_unit_zero (S := S1024x1) _ hz]

end Cert.KernelIdeal.Pieces

end
-- ==== Proof.KInv.lean ====
/-
  What the kernel's two accumulators hold after each grid point, and what it stores into the two results.

  Grid point `n` (of 128, row-major over 8 × 16) works on source rows `1024·(n / 16) + r` and target rows
  `512·(n % 16) + k`. For source row `r` of the block the first accumulator holds, after point `n`, the
  same-section terms of that source row over the target groups `0 … n % 16`, added in order onto a zero
  (`running` of `Spec.lean`); the second holds the other-section terms likewise. At the last point of a
  source block (`n % 16 = 15`) the body stores each accumulator, laid out as a row and times 1/8192, into its
  result block: by `running_last` that is the row's loss.
-/
import proofs.«135731_j80315888435505_1_alg».proof.Proof.Spec
import proofs.«135731_j80315888435505_1_alg».proof.Proof.KPay
import proofs.«135731_j80315888435505_1_alg».proof.Proof.KPieces
import proofs.«135731_j80315888435505_1_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Inv

open Idealize.ShloMosaic Idealize.ShloMosaic.TcCoe Idealize.SL.Sem Idealize.ShloMosaic.ValueIdx
open Idealize.ShloMosaic.Pipeline (Dat)
open Cert.KernelIdeal Cert.KernelIdeal.Gen Cert.PairLoss

variable (m : (ℓ : Loc nD τ sig) → Buf (Elt Ideal) ℓ)

/-- The four argument arrays of core `c`, by coordinates. -/
abbrev srcRows (c : Dev nD) : Fin 8192 → Fin 512 → EReal := fun p d => m ((c : Thread nD τ).loc main_arg0) (ix2 p d)
abbrev tgtRows (c : Dev nD) : Fin 8192 → Fin 512 → EReal := fun q d => m ((c : Thread nD τ).loc main_arg1) (ix2 q d)
abbrev srcSec (c : Dev nD) : Fin 8192 → BitVec 32 := fun p => m ((c : Thread nD τ).loc main_arg2) (ix1 p)
abbrev tgtSec (c : Dev nD) : Fin 8192 → BitVec 32 := fun q => m ((c : Thread nD τ).loc main_arg3) (ix1 q)

/-- Row `r` of the source block of point `n` is source row `1024·(n / 16) + r` (the remainder only makes it total). -/
def srcRow (n : ℕ) (r : Fin 1024) : Fin 8192 := ⟨(1024 * (n / 16) + r.val) % 8192, Nat.mod_lt _ (by norm_num)⟩

theorem srcRow_val {n : ℕ} (hn : n < 128) (r : Fin 1024) : (srcRow n r).val = 1024 * (n / 16) + r.val := by
  have := r.isLt
  show (1024 * (n / 16) + r.val) % 8192 = _
  exact Nat.mod_eq_of_lt (by omega)

/-- Within a source block the source rows do not move. -/
theorem srcRow_succ {n : ℕ} (h : ¬(n + 1) % 16 = 0) (r : Fin 1024) : srcRow (n + 1) r = srcRow n r := by
  have e : (n + 1) / 16 = n / 16 := by omega
  apply Fin.ext
  show (1024 * ((n + 1) / 16) + r.val) % 8192 = (1024 * (n / 16) + r.val) % 8192
  rw [e]

/-! ## The blocks the body loads, as rows of the argument arrays -/

/-- Where each input window's block sits at point `t`, decided over the grid: the source windows move with
    `t / 16`, the target windows with `t % 16`. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16 :=
  (by decide +kernel : ∀ t : Fin grid0.N, _)

/-- The four blocks of point `t`, at their literal types. -/
abbrev blk0 (c : Dev nD) (t : Fin cfg0.N) : Vec Ideal S1024x512 .f32 := iblk m c 0 t
abbrev blk1 (c : Dev nD) (t : Fin cfg0.N) : Vec Ideal S512x512 .f32 := iblk m c 1 t
abbrev blk2 (c : Dev nD) (t : Fin cfg0.N) : Vec Ideal S1024x1 .i32 := iblk m c 2 t
abbrev blk3 (c : Dev nD) (t : Fin cfg0.N) : Vec Ideal S1x512 .i32 := iblk m c 3 t

/-- The section numbers reach the region as a column and as a row of the same numbers. -/
theorem V_secCol (c : Dev nD) :
    (V m c main_v0 : S8192x1.Idx → BitVec 32) = shapeCast S8192x1 (m ((c : Thread nD τ).loc main_arg2)) shapeCasts_S8192_S8192x1 := by
  show StableHlo.after hostOps0 (fun b => m (c, b)) (Proc.devRef .tc main_v0) = _
  after_results
  rfl
theorem V_secRow (c : Dev nD) :
    (V m c main_v1 : S1x8192.Idx → BitVec 32) = shapeCast S1x8192 (m ((c : Thread nD τ).loc main_arg3)) shapeCasts_S8192_S1x8192 := by
  show StableHlo.after hostOps0 (fun b => m (c, b)) (Proc.devRef .tc main_v1) = _
  after_results
  rfl

theorem blk0_apply (c : Dev nD) (t : Fin cfg0.N) (r : Fin 1024) (d : Fin 512) :
    blk0 m c t (ix2 r d) = srcRows m c (srcRow t.val r) d := by
  obtain ⟨e0, e1, -⟩ := idx_facts t
  have hN : t.val < 128 := lt_of_lt_of_eq t.isLt (show cfg0.N = 128 from N_0)
  show iblk m c 0 t (ix2 r d) = _
  unfold iblk
  rw [View.read_apply]
  refine (congrFun (V_main_arg0 m c) _).trans ?_
  refine congrArg (m ((c : Thread nD τ).loc main_arg0)) (funext fun a => Fin.ext ?_)
  match a with
  | ⟨0, _⟩ => show win0_0.index t (0 : Fin 2) * 1024 + 1 * r.val = (srcRow t.val r).val; rw [e0, srcRow_val hN]; omega
  | ⟨1, _⟩ => show win0_0.index t (1 : Fin 2) * 512 + 1 * d.val = d.val; rw [e1]; omega

theorem blk1_apply (c : Dev nD) (t : Fin cfg0.N) (k : Fin 512) (d : Fin 512) :
    blk1 m c t (ix2 k d) = tgtRows m c (col (t.val % 16) k) d := by
  obtain ⟨-, -, e0, e1, -⟩ := idx_facts t
  have hj : t.val % 16 < 16 := Nat.mod_lt _ (by norm_num)
  show iblk m c 1 t (ix2 k d) = _
  unfold iblk
  rw [View.read_apply]
  refine (congrFun (V_main_arg1 m c) _).trans ?_
  refine congrArg (m ((c : Thread nD τ).loc main_arg1)) (funext fun a => Fin.ext ?_)
  match a with
  | ⟨0, _⟩ => show win0_1.index t (0 : Fin 2) * 512 + 1 * k.val = (col (t.val % 16) k).val; rw [e0, col_val hj]; omega
  | ⟨1, _⟩ => show win0_1.index t (1 : Fin 2) * 512 + 1 * d.val = d.val; rw [e1]; omega

theorem blk2_apply (c : Dev nD) (t : Fin cfg0.N) (r : Fin 1024) :
    blk2 m c t (ix2 r (0 : Fin 1)) = srcSec m c (srcRow t.val r) := by
  obtain ⟨-, -, -, -, e0, e1, -⟩ := idx_facts t
  have hN : t.val < 128 := lt_of_lt_of_eq t.isLt (show cfg0.N = 128 from N_0)
  show iblk m c 2 t (ix2 r (0 : Fin 1)) = _
  unfold iblk
  rw [View.read_apply]
  refine (congrFun (V_secCol m c) _).trans ?_
  refine shapeCast_apply _ _ _ (ix1 (srcRow t.val r)) ?_
  rw [Shape.rowMajor_val_one, Shape.rowMajor_val_two]
  show (srcRow t.val r).val = (win0_2.index t (0 : Fin 2) * 1024 + 1 * r.val) * 1 + (win0_2.index t (1 : Fin 2) * 1 + 1 * 0)
  rw [e0, e1, srcRow_val hN]; omega

theorem blk3_apply (c : Dev nD) (t : Fin cfg0.N) (k : Fin 512) :
    blk3 m c t (ix2 (0 : Fin 1) k) = tgtSec m c (col (t.val % 16) k) := by
  obtain ⟨-, -, -, -, -, -, e0, e1⟩ := idx_facts t
  have hj : t.val % 16 < 16 := Nat.mod_lt _ (by norm_num)
  show iblk m c 3 t (ix2 (0 : Fin 1) k) = _
  unfold iblk
  rw [View.read_apply]
  refine (congrFun (V_secRow m c) _).trans ?_
  refine shapeCast_apply _ _ _ (ix1 (col (t.val % 16) k)) ?_
  rw [Shape.rowMajor_val_one, Shape.rowMajor_val_two]
  show (col (t.val % 16) k).val = (win0_3.index t (0 : Fin 2) * 1 + 1 * 0) * 8192 + (win0_3.index t (1 : Fin 2) * 512 + 1 * k.val)
  rw [e0, e1, col_val hj]; omega

/-! ## One point's contribution -/

/-- The same-section terms of the source row that row `r` of point `n`'s block is, against every target row. -/
abbrev rowS (c : Dev nD) (n : ℕ) (r : Fin 1024) : Fin 8192 → EReal := fun q =>
  termS (srcRows m c (srcRow n r)) (tgtRows m c q) (srcSec m c (srcRow n r)) (tgtSec m c q)
/-- The other-section terms likewise. -/
abbrev rowC (c : Dev nD) (n : ℕ) (r : Fin 1024) : Fin 8192 → EReal := fun q =>
  termC (srcRows m c (srcRow n r)) (tgtRows m c q) (srcSec m c (srcRow n r)) (tgtSec m c q)

/-- Point `t` adds, to the first accumulator's row `r`, the same-section terms over target group `t % 16`. -/
theorem step0 (c : Dev nD) (t : Fin cfg0.N) (xs0 : Vec Ideal S1024x1 .f32) (r : Fin 1024) :
    k0_pay1 (F := Ideal) (k0_pay10 (blk0 m c t) (blk1 m c t) (blk2 m c t) (blk3 m c t)) xs0 (ix2 r (0 : Fin 1))
      = xs0 (ix2 r (0 : Fin 1)) + group (rowS m c t.val r) (t.val % 16) := by
  rw [Pay.pay1_apply, Pay.pay10_apply]
  refine congrArg (xs0 (ix2 r (0 : Fin 1)) + ·) (Finset.sum_congr rfl fun k _ => ?_)
  have e0 : (fun d => blk0 m c t (ix2 r d)) = srcRows m c (srcRow t.val r) := funext fun d => blk0_apply m c t r d
  have e1 : (fun d => blk1 m c t (ix2 k d)) = tgtRows m c (col (t.val % 16) k) := funext fun d => blk1_apply m c t k d
  rw [e0, e1, blk2_apply, blk3_apply]

/-- And to the second accumulator's row `r` the other-section terms over that group. -/
theorem step1 (c : Dev nD) (t : Fin cfg0.N) (xs1 : Vec Ideal S1024x1 .f32) (r : Fin 1024) :
    k0_pay2 (F := Ideal) (k0_pay8 (blk0 m c t) (blk1 m c t)) (k0_pay9 (blk2 m c t) (blk3 m c t)) k0_pay11 xs1 (ix2 r (0 : Fin 1))
      = xs1 (ix2 r (0 : Fin 1)) + group (rowC m c t.val r) (t.val % 16) := by
  rw [Pay.pay2_apply]
  refine congrArg (xs1 (ix2 r (0 : Fin 1)) + ·) (Finset.sum_congr rfl fun k _ => ?_)
  have e0 : (fun d => blk0 m c t (ix2 r d)) = srcRows m c (srcRow t.val r) := funext fun d => blk0_apply m c t r d
  have e1 : (fun d => blk1 m c t (ix2 k d)) = tgtRows m c (col (t.val % 16) k) := funext fun d => blk1_apply m c t k d
  rw [e0, e1, blk2_apply, blk3_apply]

/-! ## The accumulators after each point -/

/-- What the first point of a source block leaves in the two accumulators: its group's sums, onto zero. -/
theorem acc_first (c : Dev nD) (t : Fin cfg0.N) (h0 : t.val % 16 = 0) (r : Fin 1024) :
    (outsAt0 m c t.val t.isLt).2.2.1 (ix2 r (0 : Fin 1)) = 0 + group (rowS m c t.val r) (t.val % 16)
    ∧ (outsAt0 m c t.val t.isLt).2.2.2 (ix2 r (0 : Fin 1)) = 0 + group (rowC m c t.val r) (t.val % 16) := by
  have h1 : ¬t.val % 16 = 15 := by omega
  rw [outsAt0_A m c t h0 h1]
  dsimp only
  constructor
  · refine (congrFun (Pieces.sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 r (0 : Fin 1))).trans ?_
    refine (step0 m c t (k0_pay5 (F := Ideal)) r).trans ?_
    rw [Pay.pay5_apply]
  · refine (congrFun (Pieces.sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 r (0 : Fin 1))).trans ?_
    refine (step1 m c t (k0_pay6 (F := Ideal)) r).trans ?_
    rw [Pay.pay6_apply]

/-- What any later point of the block leaves: its group's sums, onto what the point before left. -/
theorem acc_next (c : Dev nD) (t : Fin cfg0.N) (h0 : ¬t.val % 16 = 0) (r : Fin 1024) :
    (outsAt0 m c t.val t.isLt).2.2.1 (ix2 r (0 : Fin 1))
        = (outsAt0 m c (t.val - 1) (Nat.lt_of_le_of_lt (Nat.sub_le _ _) t.isLt)).2.2.1 (ix2 r (0 : Fin 1)) + group (rowS m c t.val r) (t.val % 16)
    ∧ (outsAt0 m c t.val t.isLt).2.2.2 (ix2 r (0 : Fin 1))
        = (outsAt0 m c (t.val - 1) (Nat.lt_of_le_of_lt (Nat.sub_le _ _) t.isLt)).2.2.2 (ix2 r (0 : Fin 1)) + group (rowC m c t.val r) (t.val % 16) := by
  by_cases h1 : t.val % 16 = 15
  · rw [outsAt0_C m c t h0 h1]
    dsimp only
    constructor
    · refine (congrFun (Pieces.sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t)
        (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
      exact step0 m c t _ r
    · refine (congrFun (Pieces.sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t)
        (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
      exact step1 m c t _ r
  · rw [outsAt0_B m c t h0 h1]
    dsimp only
    constructor
    · refine (congrFun (Pieces.sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t)
        (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
      exact step0 m c t _ r
    · refine (congrFun (Pieces.sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t)
        (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
      exact step1 m c t _ r

/-- So after point `n` each accumulator's row `r` holds the terms of its source row over the target groups
    `0 … n % 16`, added in order onto a zero: by induction on the point. -/
theorem acc_inv (c : Dev nD) : ∀ (n : ℕ) (h : n < cfg0.N) (r : Fin 1024),
    (outsAt0 m c n h).2.2.1 (ix2 r (0 : Fin 1)) = running (rowS m c n r) (n % 16)
    ∧ (outsAt0 m c n h).2.2.2 (ix2 r (0 : Fin 1)) = running (rowC m c n r) (n % 16)
  | 0, h, r => by
    obtain ⟨a, b⟩ := acc_first m c ⟨0, h⟩ rfl r
    exact ⟨a, b⟩
  | n + 1, h, r => by
    by_cases h0 : (n + 1) % 16 = 0
    · obtain ⟨a, b⟩ := acc_first m c ⟨n + 1, h⟩ h0 r
      refine ⟨a.trans ?_, b.trans ?_⟩ <;> (show _ = running _ ((n + 1) % 16); rw [h0]; rfl)
    · obtain ⟨a, b⟩ := acc_next m c ⟨n + 1, h⟩ h0 r
      obtain ⟨ia, ib⟩ := acc_inv c n (Nat.lt_of_succ_lt h) r
      have e : (n + 1) % 16 = n % 16 + 1 := by omega
      have es : srcRow (n + 1) r = srcRow n r := srcRow_succ h0 r
      refine ⟨a.trans ?_, b.trans ?_⟩
      · show (outsAt0 m c n _).2.2.1 (ix2 r (0 : Fin 1)) + group (rowS m c (n + 1) r) ((n + 1) % 16) = running (rowS m c (n + 1) r) ((n + 1) % 16)
        rw [ia, e]
        show running (rowS m c n r) (n % 16) + group (rowS m c (n + 1) r) (n % 16 + 1) = running (rowS m c (n + 1) r) (n % 16) + group (rowS m c (n + 1) r) (n % 16 + 1)
        unfold rowS; rw [es]
      · show (outsAt0 m c n _).2.2.2 (ix2 r (0 : Fin 1)) + group (rowC m c (n + 1) r) ((n + 1) % 16) = running (rowC m c (n + 1) r) ((n + 1) % 16)
        rw [ib, e]
        show running (rowC m c n r) (n % 16) + group (rowC m c (n + 1) r) (n % 16 + 1) = running (rowC m c (n + 1) r) (n % 16) + group (rowC m c (n + 1) r) (n % 16 + 1)
        unfold rowC; rw [es]

/-! ## The two result blocks -/

/-- At the last point of a source block each result block is its accumulator, as a row, times 1/8192. -/
theorem out_last (c : Dev nD) (t : Fin cfg0.N) (h15 : t.val % 16 = 15) (r : Fin 1024) :
    (outsAt0 m c t.val t.isLt).1 (ix2 (0 : Fin 1) r) = (outsAt0 m c t.val t.isLt).2.2.1 (ix2 r (0 : Fin 1)) * ((1 / 8192 : ℝ) : EReal)
    ∧ (outsAt0 m c t.val t.isLt).2.1 (ix2 (0 : Fin 1) r) = (outsAt0 m c t.val t.isLt).2.2.2 (ix2 r (0 : Fin 1)) * ((1 / 8192 : ℝ) : EReal) := by
  have h0 : ¬t.val % 16 = 0 := by omega
  rw [outsAt0_C m c t h0 h15]
  dsimp only
  constructor
  · rw [Pieces.oC4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h15) (iblk m c 0 t) (iblk m c 1 t) (iblk m c 2 t) (iblk m c 3 t)
        (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h15) (iblk m c 0 t) (iblk m c 1 t) (iblk m c 2 t) (iblk m c 3 t)
        (outsAt0 m c (t.val - 1) (Nat.lt_of_le_of_lt (Nat.sub_le _ _) t.isLt)).2.2.1 (outsAt0 m c (t.val - 1) (Nat.lt_of_le_of_lt (Nat.sub_le _ _) t.isLt)).2.2.2]
    exact Pay.pay3_apply _ r
  · rw [Pieces.oC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h15) (iblk m c 0 t) (iblk m c 1 t) (iblk m c 2 t) (iblk m c 3 t)
        (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h15) (iblk m c 0 t) (iblk m c 1 t) (iblk m c 2 t) (iblk m c 3 t)
        (outsAt0 m c (t.val - 1) (Nat.lt_of_le_of_lt (Nat.sub_le _ _) t.isLt)).2.2.1 (outsAt0 m c (t.val - 1) (Nat.lt_of_le_of_lt (Nat.sub_le _ _) t.isLt)).2.2.2]
    exact Pay.pay4_apply _ r

/-- At the last point of a source block the first result's block holds, at column `r`, the same-section loss of
    the block's source row `r`. -/
theorem out4_at (c : Dev nD) (t : Fin cfg0.N) (h15 : t.val % 16 = 15) (r : Fin 1024) :
    (outsAt0 m c t.val t.isLt).1 (ix2 (0 : Fin 1) r)
      = lossS (srcRows m c) (tgtRows m c) (srcSec m c) (tgtSec m c) (srcRow t.val r) := by
  rw [(out_last m c t h15 r).1, (acc_inv m c t.val t.isLt r).1, h15, running_last]
  rfl

/-- And the second result's block the other-section loss. -/
theorem out5_at (c : Dev nD) (t : Fin cfg0.N) (h15 : t.val % 16 = 15) (r : Fin 1024) :
    (outsAt0 m c t.val t.isLt).2.1 (ix2 (0 : Fin 1) r)
      = lossC (srcRows m c) (tgtRows m c) (srcSec m c) (tgtSec m c) (srcRow t.val r) := by
  rw [(out_last m c t h15 r).2, (acc_inv m c t.val t.isLt r).2, h15, running_last]
  rfl

end Cert.KernelIdeal.Inv

end
-- ==== Proof.KFinal.lean ====
/-
  The kernel program's two results as functions of its four arguments.

  The two result arrays of the region are [1, 8192]; grid point `t` with `t % 16 = 15` writes back block
  `t / 16` (columns `1024·(t / 16) … + 1023`), which by `Inv.out4_at` / `out5_at` holds the losses of those
  source rows; the eight such blocks tile the array. The program's results are these arrays reshaped to [8192].
-/
import proofs.«135731_j80315888435505_1_alg».proof.Proof.KInv
import Idealize.ShloMosaic.Lib.StableHlo.Run
import Idealize.ShloMosaic.Lib.ValueLayout

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Inv Cert.PairLoss

variable (m : (ℓ : Loc nD τ sig) → Buf (Elt Ideal) ℓ) (ρ : Dev nD → PrngReg)

/-- The first result: at source row `p` its same-section loss. -/
def resS (c : Dev nD) : Buf (Elt Ideal) ((c.tc : Thread nD τ).loc main_v3) :=
  fun i => lossS (srcRows m c) (tgtRows m c) (srcSec m c) (tgtSec m c) (i 0)
/-- The second result: at source row `p` its other-section loss. -/
def resC (c : Dev nD) : Buf (Elt Ideal) ((c.tc : Thread nD τ).loc main_v4) :=
  fun i => lossC (srcRows m c) (tgtRows m c) (srcSec m c) (tgtSec m c) (i 0)

/-! ## The two result arrays of the region -/

/-- The first [1, 8192] array: at column `p` the same-section loss of source row `p`. -/
def G4 (c : Dev nD) : Buf (Elt Ideal) ((cfg0.win 4).arr.view.loc (c.tc : Thread nD τ)) :=
  fun i => lossS (srcRows m c) (tgtRows m c) (srcSec m c) (tgtSec m c) (i 1)
/-- The second [1, 8192] array: at column `p` the other-section loss of source row `p`. -/
def G5 (c : Dev nD) : Buf (Elt Ideal) ((cfg0.win 5).arr.view.loc (c.tc : Thread nD τ)) :=
  fun i => lossC (srcRows m c) (tgtRows m c) (srcSec m c) (tgtSec m c) (i 1)

/-- The two result windows' index maps over the grid: block row 0, block column `t / 16`. -/
theorem idx_facts : ∀ t : Fin cfg0.N, win0_4.index t (0 : Fin 2) = 0 ∧ win0_4.index t (1 : Fin 2) = t.val / 16
    ∧ win0_5.index t (0 : Fin 2) = 0 ∧ win0_5.index t (1 : Fin 2) = t.val / 16 :=
  (by decide +kernel : ∀ t : Fin grid0.N, _)

/-! ## The first result array -/

/-- What the last point `t` of a source block writes back is block `t / 16` of the losses: column `r` of the
    block is column `1024·(t / 16) + r` of the array, and the block holds there the loss of that source row. -/
theorem flushed_eq4 (c : Dev nD) (t : Fin cfg0.N) (hf : (cfg0.win 4).flush t = true) :
    (dats m 0 c).flushed 4 t = ((cfg0.win 4).blk t).view.read (Elt Ideal) (G4 m c) := by
  have hN : cfg0.N = 128 := N_0
  have h15 : t.val % 16 = 15 := (flush0_4 t).mp hf
  obtain ⟨e0, e1, -, -⟩ := idx_facts t
  show (cfg0.win 4).cut (grid0.coords t) ((dats m 0 c).after 4 t) = _
  rw [after0_4]
  funext y
  obtain ⟨u, r, rfl⟩ : ∃ (u : Fin 1) (r : Fin 1024), y = ix2 u r := ⟨y 0, y 1, eq_ix2 y⟩
  obtain rfl : u = 0 := Subsingleton.elim _ _
  show (outsAt0 m c t.val t.isLt).1 (ix2 (0 : Fin 1) r) = G4 m c (((cfg0.win 4).blk t).view.emb (ix2 (0 : Fin 1) r))
  rw [out4_at m c t h15 r]
  unfold G4
  refine congrArg (lossS (srcRows m c) (tgtRows m c) (srcSec m c) (tgtSec m c)) (Fin.ext ?_)
  rw [srcRow_val (by omega) r]
  show 1024 * (t.val / 16) + r.val = win0_4.index t (1 : Fin 2) * 1024 + 1 * r.val
  rw [e1]; omega

/-- An index of the array is in point `t`'s block iff each coordinate is in the block's range on its axis. -/
theorem mem_blk4 (t : Fin cfg0.N) (i : S1x8192.Idx) :
    i ∈ ((cfg0.win 4).blk t).view.set ↔ ∀ a : Fin 2, win0_4.index t a * S1x1024.size a ≤ (i a).val ∧ (i a).val < win0_4.index t a * S1x1024.size a + S1x1024.size a := by
  show i ∈ ((View.whole main_v2_0).slice (win0_4.rect t)).set ↔ _
  rw [View.set_slice_whole, Rect.mem_set_unit]
  exact Iff.rfl

/-- The eight blocks tile the array: column `p` lies in the block written back at the last point of source block
    `p / 1024`. -/
theorem cover4 (i : S1x8192.Idx) : ∃ t : Fin cfg0.N, (cfg0.win 4).flush t = true ∧ i ∈ ((cfg0.win 4).blk t).view.set := by
  have hN : cfg0.N = 128 := N_0
  have hi0 : (i 0).val < 1 := (i 0).isLt
  have hi1 : (i 1).val < 8192 := (i 1).isLt
  refine ⟨⟨16 * ((i 1).val / 1024) + 15, by omega⟩, (flush0_4 _).mpr (by show (16 * ((i 1).val / 1024) + 15) % 16 = 15; omega), ?_⟩
  rw [mem_blk4]
  obtain ⟨e0, e1, -, -⟩ := idx_facts ⟨16 * ((i 1).val / 1024) + 15, by omega⟩
  intro a
  match a with
  | ⟨0, _⟩ =>
    show win0_4.index _ (0 : Fin 2) * 1 ≤ (i 0).val ∧ (i 0).val < win0_4.index _ (0 : Fin 2) * 1 + 1
    rw [e0]; omega
  | ⟨1, _⟩ =>
    show win0_4.index _ (1 : Fin 2) * 1024 ≤ (i 1).val ∧ (i 1).val < win0_4.index _ (1 : Fin 2) * 1024 + 1024
    rw [e1]
    show (16 * ((i 1).val / 1024) + 15) / 16 * 1024 ≤ (i 1).val ∧ (i 1).val < (16 * ((i 1).val / 1024) + 15) / 16 * 1024 + 1024
    omega

/-- So the first result array of the region ends holding every source row's same-section loss. -/
theorem final4 (c : Dev nD) : (dats m 0 c).arrAt 4 cfg0.N = G4 m c :=
  (dats m 0 c).arrAt_eq_of_cover 4 (G4 m c) (fun t hf => flushed_eq4 m c t hf) cover4

/-! ## The second result array -/

/-- The same for the second result: the block written back at the last point of a source block is that block
    of the other-section losses. -/
theorem flushed_eq5 (c : Dev nD) (t : Fin cfg0.N) (hf : (cfg0.win 5).flush t = true) :
    (dats m 0 c).flushed 5 t = ((cfg0.win 5).blk t).view.read (Elt Ideal) (G5 m c) := by
  have hN : cfg0.N = 128 := N_0
  have h15 : t.val % 16 = 15 := (flush0_5 t).mp hf
  obtain ⟨-, -, e0, e1⟩ := idx_facts t
  show (cfg0.win 5).cut (grid0.coords t) ((dats m 0 c).after 5 t) = _
  rw [after0_5]
  funext y
  obtain ⟨u, r, rfl⟩ : ∃ (u : Fin 1) (r : Fin 1024), y = ix2 u r := ⟨y 0, y 1, eq_ix2 y⟩
  obtain rfl : u = 0 := Subsingleton.elim _ _
  show (outsAt0 m c t.val t.isLt).2.1 (ix2 (0 : Fin 1) r) = G5 m c (((cfg0.win 5).blk t).view.emb (ix2 (0 : Fin 1) r))
  rw [out5_at m c t h15 r]
  unfold G5
  refine congrArg (lossC (srcRows m c) (tgtRows m c) (srcSec m c) (tgtSec m c)) (Fin.ext ?_)
  rw [srcRow_val (by omega) r]
  show 1024 * (t.val / 16) + r.val = win0_5.index t (1 : Fin 2) * 1024 + 1 * r.val
  rw [e1]; omega

/-- Membership in point `t`'s block of the second array, coordinate by coordinate. -/
theorem mem_blk5 (t : Fin cfg0.N) (i : S1x8192.Idx) :
    i ∈ ((cfg0.win 5).blk t).view.set ↔ ∀ a : Fin 2, win0_5.index t a * S1x1024.size a ≤ (i a).val ∧ (i a).val < win0_5.index t a * S1x1024.size a + S1x1024.size a := by
  show i ∈ ((View.whole main_v2_1).slice (win0_5.rect t)).set ↔ _
  rw [View.set_slice_whole, Rect.mem_set_unit]
  exact Iff.rfl

/-- Its eight blocks tile it in the same way. -/
theorem cover5 (i : S1x8192.Idx) : ∃ t : Fin cfg0.N, (cfg0.win 5).flush t = true ∧ i ∈ ((cfg0.win 5).blk t).view.set := by
  have hN : cfg0.N = 128 := N_0
  have hi0 : (i 0).val < 1 := (i 0).isLt
  have hi1 : (i 1).val < 8192 := (i 1).isLt
  refine ⟨⟨16 * ((i 1).val / 1024) + 15, by omega⟩, (flush0_5 _).mpr (by show (16 * ((i 1).val / 1024) + 15) % 16 = 15; omega), ?_⟩
  rw [mem_blk5]
  obtain ⟨-, -, e0, e1⟩ := idx_facts ⟨16 * ((i 1).val / 1024) + 15, by omega⟩
  intro a
  match a with
  | ⟨0, _⟩ =>
    show win0_5.index _ (0 : Fin 2) * 1 ≤ (i 0).val ∧ (i 0).val < win0_5.index _ (0 : Fin 2) * 1 + 1
    rw [e0]; omega
  | ⟨1, _⟩ =>
    show win0_5.index _ (1 : Fin 2) * 1024 ≤ (i 1).val ∧ (i 1).val < win0_5.index _ (1 : Fin 2) * 1024 + 1024
    rw [e1]
    show (16 * ((i 1).val / 1024) + 15) / 16 * 1024 ≤ (i 1).val ∧ (i 1).val < (16 * ((i 1).val / 1024) + 15) / 16 * 1024 + 1024
    omega

/-- And the second result array ends holding every source row's other-section loss. -/
theorem final5 (c : Dev nD) : (dats m 0 c).arrAt 5 cfg0.N = G5 m c :=
  (dats m 0 c).arrAt_eq_of_cover 5 (G5 m c) (fun t hf => flushed_eq5 m c t hf) cover5

/-! ## The two reshapes after the region -/

/-- The first program result is the first [1, 8192] array read as [8192]: entry `p` is the array's `(0, p)`. -/
theorem tail3 (c : Dev nD) : Pipeline.afterTail₀ cfgs (dats m) 0 (V0 m) [hostOps1] c main_v3 = resS m c := by
  unfold Pipeline.afterTail₀
  show StableHlo.after (List.flatten [hostOps1]) _ (Proc.devRef .tc main_v3) = _
  simp only [List.flatten_cons, List.flatten_nil, List.append_nil]
  after_results
  have hA : Pipeline.withArrays (cfgs 0).spec c (V0 m c) (fun w => (dats m 0 c).arrAt w (cfgs 0).N) (Proc.devRef .tc main_v2_0) = G4 m c :=
    (Pipeline.withArrays_arr spec0 launch0.win.arr_inj c (V0 m c) (fun w => (dats m 0 c).arrAt w (cfgs 0).N) 4).trans (final4 m c)
  rw [hA]
  funext i
  obtain ⟨p, rfl⟩ : ∃ p : Fin 8192, i = ix1 p := ⟨i 0, eq_ix1 i⟩
  show shapeCast S8192 (G4 m c) shapeCasts_S1x8192_S8192 (ix1 p) = _
  rw [shapeCast_1a_a_apply]
  rfl

/-- The second program result likewise, from the second array. -/
theorem tail4 (c : Dev nD) : Pipeline.afterTail₀ cfgs (dats m) 0 (V0 m) [hostOps1] c main_v4 = resC m c := by
  unfold Pipeline.afterTail₀
  show StableHlo.after (List.flatten [hostOps1]) _ (Proc.devRef .tc main_v4) = _
  simp only [List.flatten_cons, List.flatten_nil, List.append_nil]
  after_results
  have hA : Pipeline.withArrays (cfgs 0).spec c (V0 m c) (fun w => (dats m 0 c).arrAt w (cfgs 0).N) (Proc.devRef .tc main_v2_1) = G5 m c :=
    (Pipeline.withArrays_arr spec0 launch0.win.arr_inj c (V0 m c) (fun w => (dats m 0 c).arrAt w (cfgs 0).N) 5).trans (final5 m c)
  rw [hA]
  funext i
  obtain ⟨p, rfl⟩ : ∃ p : Fin 8192, i = ix1 p := ⟨i 0, eq_ix1 i⟩
  show shapeCast S8192 (G5 m c) shapeCasts_S1x8192_S8192 (ix1 p) = _
  rw [shapeCast_1a_a_apply]
  rfl

/-! ## The run, read -/

/-- Every weakly fair execution of the kernel program ends with its two results at the two losses and its four
    arguments unchanged. -/
theorem run : θ_run defs (onTc (τ := τ) (main (F := Ideal))) ⟨m, fun _ => 0, ρ⟩ fun r => ∀ c : Dev nD,
      r.2.mem ((c.tc : Thread nD τ).loc main_v3) = resS m c
      ∧ r.2.mem ((c.tc : Thread nD τ).loc main_v4) = resC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v3 (Pipeline.mem_restRefs_of main_v3 (by decide) (by decide))).trans (tail3 m c),
      ((h c).2 main_v4 (Pipeline.mem_restRefs_of main_v4 (by decide) (by decide))).trans (tail4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.lean ====
/-
  The certificate of the pairwise-distance margin loss: the proof of `Cert.Claim`.

  For every source row `p` the two programs end with the same two extended reals, the same-section loss `lossS`
  and the other-section loss `lossC` of `Proof/Spec.lean`: the sums over the 8192 target rows of the clamped mean
  squared difference where the two section numbers agree, and of the squared hinge of the margin 1/2 over its
  square root where they differ, each times 1/8192. The kernel program ends with its two result arrays at these
  values (`KValue.run`); the reference's two result terms, read at row `p`, are these values
  (`RefValue.ref_lossS`, `RefValue.ref_lossC`); and memories that agree on the four arguments give both
  programs the same rows and the same section numbers. The frames of the two kernel programs are the generated
  ones, the reference's frame is its run with the two results dropped, and the idealization rewrote no
  operation, so what it preserves is `True`.
-/
import proofs.«135731_j80315888435505_1_alg».proof.Defs
import proofs.«135731_j80315888435505_1_alg».proof.Proof.Gen.Kernel
import proofs.«135731_j80315888435505_1_alg».proof.Proof.Gen.Kernel.Skeleton
import proofs.«135731_j80315888435505_1_alg».proof.Proof.Gen.Kernel.Launch
import proofs.«135731_j80315888435505_1_alg».proof.Proof.Gen.Kernel.Points
import proofs.«135731_j80315888435505_1_alg».proof.Proof.Gen.Kernel.Frame
import proofs.«135731_j80315888435505_1_alg».proof.Proof.Gen.KernelIdeal
import proofs.«135731_j80315888435505_1_alg».proof.Proof.Gen.KernelIdeal.Skeleton
import proofs.«135731_j80315888435505_1_alg».proof.Proof.Gen.KernelIdeal.Launch
import proofs.«135731_j80315888435505_1_alg».proof.Proof.Gen.KernelIdeal.Points
import proofs.«135731_j80315888435505_1_alg».proof.Proof.Gen.KernelIdeal.Frame
import proofs.«135731_j80315888435505_1_alg».proof.Proof.Gen.ReferenceIdeal
import proofs.«135731_j80315888435505_1_alg».proof.Proof.Gen.Pre_finite_inputs
import proofs.«135731_j80315888435505_1_alg».proof.Proof.Gen.ReferenceIdeal.Run
import proofs.«135731_j80315888435505_1_alg».proof.Proof.Gen.ReferenceIdeal.Read
import proofs.«135731_j80315888435505_1_alg».proof.Proof.RefVal
import proofs.«135731_j80315888435505_1_alg».proof.Proof.KFinal
import Idealize.ShloMosaic.Adequacy
import Idealize.ShloMosaic.Init

noncomputable section

namespace Cert.Proof

open Idealize.ShloMosaic Idealize.SL.Sem Idealize.ShloMosaic.ValueIdx

/-- The kernel program runs and leaves its four arguments unchanged. -/
theorem frame_k : Cert.frame_Kernel := fun m ρ _ => Cert.Kernel.Gen.frame m ρ

/-- So does the kernel program read at the extended reals. -/
theorem frame_ki : Cert.frame_KernelIdeal := fun m ρ _ => Cert.KernelIdeal.Gen.frame m ρ

/-- The reference runs and leaves its four arguments unchanged: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the four arguments both programs end with the two losses of every source row:
    the kernel's result arrays are the losses of its own rows and section numbers, the reference's result terms
    read at row `p` are the losses of its own, and the agreement makes the rows and section numbers the same. -/
theorem algebraic : Cert.algebraic_KernelIdeal_ReferenceIdeal := by
  intro m ρ m' ρ' _ hagree
  refine ⟨fun c => Cert.KernelIdeal.KValue.resS m c, fun c => Cert.KernelIdeal.KValue.resC m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v26_eq _ _ _ _).trans ?_
    rw [(hagree c).1, (hagree c).2.1, (hagree c).2.2.1, (hagree c).2.2.2]
    funext i
    obtain ⟨p, rfl⟩ : ∃ p : Fin 8192, i = ix1 p := ⟨i 0, eq_ix1 i⟩
    exact Cert.ReferenceIdeal.RefValue.ref_lossS _ _ _ _ p
  · refine (Cert.ReferenceIdeal.Read.val_main_v35_eq _ _ _ _).trans ?_
    rw [(hagree c).1, (hagree c).2.1, (hagree c).2.2.1, (hagree c).2.2.2]
    funext i
    obtain ⟨p, rfl⟩ : ∃ p : Fin 8192, i = ix1 p := ⟨i 0, eq_ix1 i⟩
    exact Cert.ReferenceIdeal.RefValue.ref_lossC _ _ _ _ p

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
